-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x512 .f32) (main_arg2 : FVec F S1024x1024 .f32) (main_arg3 : FVec F S1024 .f32) (main_arg4 : FVec F S512x512 .f32) (main_arg5 : FVec F S512 .f32) (main_arg6 : FVec F S512x512 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16384x512 : Shape := ⟨2, ![16384, 512]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S1024x512 : Shape := ⟨2, ![1024, 512]⟩
abbrev S512x1024 : Shape := ⟨2, ![512, 1024]⟩
abbrev S1x1024 : Shape := ⟨2, ![1, 1024]⟩
abbrev S1x512 : Shape := ⟨2, ![1, 512]⟩

abbrev nBuf : Space → Nat
  | .hbm => 18
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S512x1024, .f32⟩
  | .hbm, ⟨12, _⟩ => ⟨S512x512, .f32⟩
  | .hbm, ⟨13, _⟩ => ⟨S512x512, .f32⟩
  | .hbm, ⟨14, _⟩ => ⟨S1x1024, .f32⟩
  | .hbm, ⟨15, _⟩ => ⟨S1x512, .f32⟩
  | .hbm, ⟨16, _⟩ => ⟨S1x512, .f32⟩
  | .hbm, ⟨17, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S1024x1024_S1024x512_0_0 : S1024x1024.Slices ![0, 0] S1024x512
  transposes_S1024x512_S512x1024_1_0 : S1024x512.Transposes [1, 0] S512x1024
  slices_S1024x1024_S1024x512_0_512 : S1024x1024.Slices ![0, 512] S1024x512
  transposes_S512x512_S512x512_1_0 : S512x512.Transposes [1, 0] S512x512
  shapeCasts_S1024_S1x1024 : S1024.ShapeCasts S1x1024
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x512 : S1024x1024.Slices ![0, 0] S1024x512
  slices_S1024x1024_o0_512_S1024x512 : S1024x1024.Slices ![0, 512] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x1024_S1024x1024_1_0_0_1_n_n_wf : DotDims.WF S1024x512 S512x1024 S1024x1024 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .f32 = 32 ∨ (Rect.block (s := S16384x512) S1024x512.size (cc0_transform_9 i) (hinb0_9 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S16384x1024 : Shape := ⟨2, ![16384, 1024]⟩
abbrev S1x1024 : Shape := ⟨2, ![1, 1024]⟩
abbrev S_ : Shape := ⟨0, ![]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S512x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S512x512, .f32⟩
  | .hbm, ⟨38, _⟩ => ⟨S16384x512, .f32⟩
  | .hbm, ⟨39, _⟩ => ⟨S1x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S16384x1024_S16384x512_0_0 : S16384x1024.Slices ![0, 0] S16384x512
  bcast_S_S16384x512 : S_.BroadcastsInDim S16384x512 (![] : Fin 0 → Fin S16384x512.rank)
  slices_S16384x1024_S16384x512_0_512 : S16384x1024.Slices ![0, 512] S16384x512
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x1024_S1024x1024_S16384x1024_1_0_0_1_n_n_wf : DotDims.WF S16384x1024 S1024x1024 S16384x1024 [1] [0] [0] [1] [] []
  dot_S16384x512_S512x512_S16384x512_1_0_0_1_n_n_wf : DotDims.WF S16384x512 S512x512 S16384x512 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.GruSpec.lean ====
/-
  The gated recurrent cell as one function of its eight argument arrays.

  For a batch row b and a hidden unit j (512 of them) the cell computes, from the input row x(b, ·), the previous
  state row h(b, ·), the joint gate weight Wg (1024 × 1024: its row c holds, in columns 0 … 511, the weights that
  meet x and, in columns 512 … 1023, the weights that meet h), the gate bias bg, and the two candidate layers
  (Wi, bi) on x and (Wh, bh) on h:

    pre(b, c)  = Σ_k x(b, k) · Wg(c, k)  +  Σ_k h(b, k) · Wg(c, 512 + k)  +  bg(c)          (c < 1024)
    r          = σ(pre(b, j)),   z = σ(pre(b, 512 + j)),   σ(t) = 1 / (1 + e^(−t))
    n          = tanh( (Σ_k x(b, k) · Wi(j, k) + bi(j))  +  r · (Σ_k h(b, k) · Wh(j, k) + bh(j)) )
    out(b, j)  = (1 − z) · n  +  z · h(b, j)

  on the extended reals, every sum over the 512 positions of a row. Nothing here mentions a program.
-/
import Idealize.ShloMosaic.PureOps.Ideal
import Idealize.ShloMosaic.Lib.ValueIdx
import Idealize.ShloMosaic.Lib.IdealHost
import Mathlib.Algebra.BigOperators.Fin

noncomputable section

namespace Cert.GruSpec

open Idealize.ShloMosaic Idealize.ShloMosaic.ValueIdx

/-- A batch of 16384 rows of 512 entries: the input, the previous state and the new state. -/
abbrev SRows : Shape := ⟨2, ![16384, 512]⟩
/-- The joint weight of the two gates. -/
abbrev SGateW : Shape := ⟨2, ![1024, 1024]⟩
/-- The joint bias of the two gates. -/
abbrev SGateB : Shape := ⟨1, ![1024]⟩
/-- A candidate layer's weight. -/
abbrev SSq : Shape := ⟨2, ![512, 512]⟩
/-- A candidate layer's bias. -/
abbrev SVec : Shape := ⟨1, ![512]⟩

/-- Position k of the first half of a row of 1024. -/
abbrev lo (k : Fin 512) : Fin 1024 := ⟨k.val, by have := k.isLt; omega⟩
/-- Position k of the second half of a row of 1024. -/
abbrev hi (k : Fin 512) : Fin 1024 := ⟨512 + k.val, by have := k.isLt; omega⟩

/-- The gates' pre-activation at batch row b and gate column c. -/
def gatePre (x h : FVec Ideal SRows .f32) (Wg : FVec Ideal SGateW .f32) (bg : FVec Ideal SGateB .f32)
    (b : Fin 16384) (c : Fin 1024) : EReal :=
  ((∑ k : Fin 512, x (ix2 b k) * Wg (ix2 c (lo k))) + ∑ k : Fin 512, h (ix2 b k) * Wg (ix2 c (hi k))) + bg (ix1 c)

/-- A candidate layer: row b of u against row j of W, plus the bias. -/
def layer (u : FVec Ideal SRows .f32) (W : FVec Ideal SSq .f32) (bv : FVec Ideal SVec .f32)
    (b : Fin 16384) (j : Fin 512) : EReal :=
  (∑ k : Fin 512, u (ix2 b k) * W (ix2 j k)) + bv (ix1 j)

/-- The new state at batch row b, hidden unit j. -/
def cell (x h : FVec Ideal SRows .f32) (Wg : FVec Ideal SGateW .f32) (bg : FVec Ideal SGateB .f32)
    (Wi : FVec Ideal SSq .f32) (bi : FVec Ideal SVec .f32) (Wh : FVec Ideal SSq .f32) (bh : FVec Ideal SVec .f32)
    (b : Fin 16384) (j : Fin 512) : EReal :=
  (1 - Ideal.logistic (gatePre x h Wg bg b (hi j)))
      * Ideal.tanh (layer x Wi bi b j + Ideal.logistic (gatePre x h Wg bg b (lo j)) * layer h Wh bh b j)
    + Ideal.logistic (gatePre x h Wg bg b (hi j)) * h (ix2 b j)

/-- The new state, as an array. -/
def newState (x h : FVec Ideal SRows .f32) (Wg : FVec Ideal SGateW .f32) (bg : FVec Ideal SGateB .f32)
    (Wi : FVec Ideal SSq .f32) (bi : FVec Ideal SVec .f32) (Wh : FVec Ideal SSq .f32) (bh : FVec Ideal SVec .f32) :
    FVec Ideal SRows .f32 :=
  fun i => cell x h Wg bg Wi bi Wh bh (i 0) (i 1)

theorem newState_apply (x h : FVec Ideal SRows .f32) (Wg : FVec Ideal SGateW .f32) (bg : FVec Ideal SGateB .f32)
    (Wi : FVec Ideal SSq .f32) (bi : FVec Ideal SVec .f32) (Wh : FVec Ideal SSq .f32) (bh : FVec Ideal SVec .f32)
    (b : Fin 16384) (j : Fin 512) :
    newState x h Wg bg Wi bi Wh bh (ix2 b j) = cell x h Wg bg Wi bi Wh bh b j := rfl

/-- The float word of 1.0 is the real 1. -/
theorem one_word : Ideal.ofBits .f32 0x3F800000#32 = (1 : EReal) := Ideal.ofBits_one_f32

/-- The logistic function spelled with the float word of 1.0 for both of its ones. -/
theorem logistic_spelled (t : EReal) :
    Ideal.div (Ideal.ofBits .f32 0x3F800000#32) (Ideal.ofBits .f32 0x3F800000#32 + Ideal.exp (-t)) = Ideal.logistic t := by
  rw [one_word]; rfl

/-- A sum over the 1024 positions of a joined row is the sum over its first half plus the sum over its second half. -/
theorem sum_halves {M : Type*} [AddCommMonoid M] (f : Fin 1024 → M) :
    ∑ q : Fin 1024, f q = (∑ k : Fin 512, f (lo k)) + ∑ k : Fin 512, f (hi k) :=
  Fin.sum_univ_add (a := 512) (b := 512) f

end Cert.GruSpec

end
-- ==== Proof.RefCell.lean ====
/-
  The reference computes the cell, entry by entry, at the ideal values.

  The reference lays x and h side by side into rows of 1024 and multiplies by the transposed joint gate weight: the sum
  over the 1024 joined positions splits into the 512 positions of x against the weight's first 512 columns and the 512
  positions of h against its last 512. Its logistic function is spelled 1 / (1 + e^(−t)) with the float word of 1.0.
  The candidate layers are a product with a transposed weight plus a bias repeated down the rows.
-/
import proofs.«176649_j87703232184582_1_alg».proof.Proof.Gen.ReferenceIdeal.Read
import proofs.«176649_j87703232184582_1_alg».proof.Proof.GruSpec

noncomputable section

namespace Cert.GruRef

open Cert.ReferenceIdeal Cert.ReferenceIdeal.Read Idealize.ShloMosaic Idealize.ShloMosaic.ValueIdx
open Cert.GruSpec

variable (x0 x1 : FVec Ideal S16384x512 .f32) (x2 : FVec Ideal S1024x1024 .f32) (x3 : FVec Ideal S1024 .f32)
  (x4 : FVec Ideal S512x512 .f32) (x5 : FVec Ideal S512 .f32) (x6 : FVec Ideal S512x512 .f32) (x7 : FVec Ideal S512 .f32)

/-- The joined row reads x in its first half. -/
theorem joined_lo (b : Fin 16384) (k : Fin 512) : val_main_v0 (F := Ideal) x0 x1 (ix2 b (lo k)) = x0 (ix2 b k) := by
  unfold val_main_v0
  exact concatenate_pair_apply_left (t := S16384x1024) (s₁ := S16384x512) (s₂ := S16384x512) 1 x0 x1 _ (ix2 b (lo k)) rfl
    (ix2 b k) (fun e => by
      match e with
      | ⟨0, _⟩ => rfl
      | ⟨1, _⟩ => rfl)

/-- The joined row reads h in its second half. -/
theorem joined_hi (b : Fin 16384) (k : Fin 512) : val_main_v0 (F := Ideal) x0 x1 (ix2 b (hi k)) = x1 (ix2 b k) := by
  unfold val_main_v0
  exact concatenate_pair_apply_right (t := S16384x1024) (s₁ := S16384x512) (s₂ := S16384x512) 1 x0 x1 _ (ix2 b (hi k)) rfl rfl
    (ix2 b k) (fun e he => by
      match e with
      | ⟨0, _⟩ => rfl
      | ⟨1, _⟩ => exact absurd rfl he)
    (by show k.val + 512 = 512 + k.val; omega)

/-- The gates' pre-activation. -/
theorem gates_apply (b : Fin 16384) (c : Fin 1024) :
    val_main_v5 (F := Ideal) x0 x1 x2 x3 (ix2 b c) = gatePre x0 x1 x2 x3 b c := by
  rw [val_main_v5_apply, val_main_v2_apply, val_main_v4_apply, val_main_v3_apply, sum_halves]
  have el : ∀ k : Fin 1024, lidx_main_v2 (ix2 b c) k = ix2 b k := fun k => funext fun a => Fin.ext (by
    match a with
    | ⟨0, _⟩ => rfl
    | ⟨1, _⟩ => rfl)
  have er : ∀ k : Fin 1024, idx_main_v1 (ridx_main_v2 (ix2 b c) k) = ix2 c k := fun k => funext fun a => Fin.ext (by
    match a with
    | ⟨0, _⟩ => rfl
    | ⟨1, _⟩ => rfl)
  have eb : idx_main_v3 (idx_main_v4 (ix2 b c)) = ix1 c := funext fun a => Fin.ext (by
    match a with
    | ⟨0, _⟩ => rfl)
  simp only [el, val_main_v1_apply, er, eb, joined_lo, joined_hi]
  rfl

/-- The reset gate. -/
theorem reset_apply (b : Fin 16384) (j : Fin 512) :
    val_main_v12 (F := Ideal) x0 x1 x2 x3 (ix2 b j) = Ideal.logistic (gatePre x0 x1 x2 x3 b (lo j)) := by
  rw [val_main_v12_apply, val_main_v11_apply, val_main_cst_0_apply, val_main_v10_apply, val_main_v9_apply,
    val_main_cst_apply, val_main_v8_apply, val_main_v7_apply, val_main_v6_apply]
  have e : idx_main_v6 (ix2 b j) = ix2 b (lo j) := funext fun a => Fin.ext (by
    match a with
    | ⟨0, _⟩ => rfl
    | ⟨1, _⟩ => rfl)
  rw [e, gates_apply]
  exact logistic_spelled _

/-- The update gate. -/
theorem update_apply (b : Fin 16384) (j : Fin 512) :
    val_main_v19 (F := Ideal) x0 x1 x2 x3 (ix2 b j) = Ideal.logistic (gatePre x0 x1 x2 x3 b (hi j)) := by
  rw [val_main_v19_apply, val_main_v18_apply, val_main_cst_2_apply, val_main_v17_apply, val_main_v16_apply,
    val_main_cst_1_apply, val_main_v15_apply, val_main_v14_apply, val_main_v13_apply]
  have e : idx_main_v13 (ix2 b j) = ix2 b (hi j) := funext fun a => Fin.ext (by
    match a with
    | ⟨0, _⟩ => rfl
    | ⟨1, _⟩ => rfl)
  rw [e, gates_apply]
  exact logistic_spelled _

/-- The candidate layer on the input. -/
theorem layer_x_apply (b : Fin 16384) (j : Fin 512) :
    val_main_v24 (F := Ideal) x0 x4 x5 (ix2 b j) = layer x0 x4 x5 b j := by
  rw [val_main_v24_apply, val_main_v21_apply, val_main_v23_apply, val_main_v22_apply]
  have el : ∀ k : Fin 512, lidx_main_v21 (ix2 b j) k = ix2 b k := fun k => funext fun a => Fin.ext (by
    match a with
    | ⟨0, _⟩ => rfl
    | ⟨1, _⟩ => rfl)
  have er : ∀ k : Fin 512, idx_main_v20 (ridx_main_v21 (ix2 b j) k) = ix2 j k := fun k => funext fun a => Fin.ext (by
    match a with
    | ⟨0, _⟩ => rfl
    | ⟨1, _⟩ => rfl)
  have eb : idx_main_v22 (idx_main_v23 (ix2 b j)) = ix1 j := funext fun a => Fin.ext (by
    match a with
    | ⟨0, _⟩ => rfl)
  simp only [el, val_main_v20_apply, er, eb]
  rfl

/-- The candidate layer on the previous state. -/
theorem layer_h_apply (b : Fin 16384) (j : Fin 512) :
    val_main_v29 (F := Ideal) x1 x6 x7 (ix2 b j) = layer x1 x6 x7 b j := by
  rw [val_main_v29_apply, val_main_v26_apply, val_main_v28_apply, val_main_v27_apply]
  have el : ∀ k : Fin 512, lidx_main_v26 (ix2 b j) k = ix2 b k := fun k => funext fun a => Fin.ext (by
    match a with
    | ⟨0, _⟩ => rfl
    | ⟨1, _⟩ => rfl)
  have er : ∀ k : Fin 512, idx_main_v25 (ridx_main_v26 (ix2 b j) k) = ix2 j k := fun k => funext fun a => Fin.ext (by
    match a with
    | ⟨0, _⟩ => rfl
    | ⟨1, _⟩ => rfl)
  have eb : idx_main_v27 (idx_main_v28 (ix2 b j)) = ix1 j := funext fun a => Fin.ext (by
    match a with
    | ⟨0, _⟩ => rfl)
  simp only [el, val_main_v25_apply, er, eb]
  rfl

/-- THE REFERENCE'S RESULT IS THE CELL, at every batch row and unit. -/
theorem result_eq : val_main_v37 (F := Ideal) x0 x1 x2 x3 x4 x5 x6 x7 = newState x0 x1 x2 x3 x4 x5 x6 x7 := by
  funext i
  obtain ⟨b, j, rfl⟩ : ∃ (b : Fin 16384) (j : Fin 512), i = ix2 b j := ⟨i 0, i 1, eq_ix2 i⟩
  rw [newState_apply, val_main_v37_apply, val_main_v35_apply, val_main_v34_apply, val_main_v33_apply, val_main_cst_3_apply,
    val_main_v36_apply, val_main_v32_apply, val_main_v31_apply, val_main_v30_apply, update_apply, reset_apply,
    layer_x_apply, layer_h_apply]
  unfold cell
  show (Ideal.ofBits .f32 0x3F800000#32 - _) * _ + _ = _
  rw [one_word]
  rfl

end Cert.GruRef

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KerPayload.lean ====
/-
  What the kernel's body computes from the nine blocks it loads, entry by entry, at the ideal values.

  A grid point holds 1024 batch rows. From the rows' blocks of x and h, the two halves of the joint gate weight laid
  out with the contracted position first, the gate bias as one row, and the two candidate layers likewise, the body
  forms the gates' pre-activation (two products into zero accumulators, added, plus the bias row repeated down the
  rows), the two candidate layers (a product plus a bias row each), and combines them entry by entry.
  A change of float format is the identity here, and a product into the zero accumulator is the plain sum over the
  contracted position.
-/
import proofs.«176649_j87703232184582_1_alg».proof.Proof.Gen.KernelIdeal.Value
import proofs.«176649_j87703232184582_1_alg».proof.Proof.LibDenseLayer
import proofs.«176649_j87703232184582_1_alg».proof.Proof.GruSpec

noncomputable section

namespace Cert.GruKernel

open Cert.KernelIdeal Cert.KernelIdeal.Gen Idealize.ShloMosaic Idealize.ShloMosaic.ValueIdx Idealize.ShloMosaic.DenseLayer
open Cert.GruSpec (lo hi)

/-- The gates' pre-activation of a block of rows: at row p, gate column c, row p of the x block against column c of the
    first weight half, plus row p of the h block against column c of the second, plus the bias row at c. -/
theorem gates_block (P0 P1 : Vec Ideal S1024x512 .f32) (P2 P3 : Vec Ideal S512x1024 .f32) (P4 : Vec Ideal S1x1024 .f32)
    (p : Fin 1024) (c : Fin 1024) :
    k0_pay4 (F := Ideal) P0 P1 P2 P3 P4 (ix2 p c)
      = ((∑ k : Fin 512, P0 (ix2 p k) * P2 (ix2 k c)) + ∑ k : Fin 512, P1 (ix2 p k) * P3 (ix2 k c))
          + P4 (ix2 (0 : Fin 1) c) := by
  unfold k0_pay4 k0_pay2 k0_pay3
  dsimp only
  rw [addf_apply, addf_apply]
  simp only [shapeCast_self]
  rw [broadcastTo_1b_ab_apply]
  refine congrArg₂ (· + ·) (congrArg₂ (· + ·) ?_ ?_) rfl
  · exact matmul_rows_apply (m := 1024) (k := 512) (n := 1024) dot_S1024x512_S512x1024_S1024x1024_1_0_0_1_n_n_wf none
      (truncf .bf16 P0 bitsLt_bf16_f32) (truncf .bf16 P2 bitsLt_bf16_f32) p c
  · exact matmul_rows_apply (m := 1024) (k := 512) (n := 1024) dot_S1024x512_S512x1024_S1024x1024_1_0_0_1_n_n_wf none
      (truncf .bf16 P1 bitsLt_bf16_f32) (truncf .bf16 P3 bitsLt_bf16_f32) p c

/-- A candidate layer of a block of rows: at row p, unit j, row p of the block against column j of the weight laid out
    with the contracted position first, plus the bias row at j. -/
theorem layer_x_block (P0 : Vec Ideal S1024x512 .f32) (P5 : Vec Ideal S512x512 .f32) (P6 : Vec Ideal S1x512 .f32)
    (p : Fin 1024) (j : Fin 512) :
    k0_pay7 (F := Ideal) P0 P5 P6 (ix2 p j) = (∑ k : Fin 512, P0 (ix2 p k) * P5 (ix2 k j)) + P6 (ix2 (0 : Fin 1) j) := by
  unfold k0_pay7 k0_pay2
  dsimp only
  rw [addf_apply]
  simp only [shapeCast_self]
  rw [broadcastTo_1b_ab_apply]
  refine congrArg₂ (· + ·) ?_ rfl
  exact matmul_rows_apply (m := 1024) (k := 512) (n := 512) dot_S1024x512_S512x512_S1024x512_1_0_0_1_n_n_wf none
    (truncf .bf16 P0 bitsLt_bf16_f32) (truncf .bf16 P5 bitsLt_bf16_f32) p j

/-- The same for the layer on the previous state. -/
theorem layer_h_block (P1 : Vec Ideal S1024x512 .f32) (P7 : Vec Ideal S512x512 .f32) (P8 : Vec Ideal S1x512 .f32)
    (p : Fin 1024) (j : Fin 512) :
    k0_pay8 (F := Ideal) P1 P7 P8 (ix2 p j) = (∑ k : Fin 512, P1 (ix2 p k) * P7 (ix2 k j)) + P8 (ix2 (0 : Fin 1) j) := by
  unfold k0_pay8 k0_pay3
  dsimp only
  rw [addf_apply]
  simp only [shapeCast_self]
  rw [broadcastTo_1b_ab_apply]
  refine congrArg₂ (· + ·) ?_ rfl
  exact matmul_rows_apply (m := 1024) (k := 512) (n := 512) dot_S1024x512_S512x512_S1024x512_1_0_0_1_n_n_wf none
    (truncf .bf16 P1 bitsLt_bf16_f32) (truncf .bf16 P7 bitsLt_bf16_f32) p j

/-- Where an entry (p, j) of the block reads the gates: the reset gate in column j, the update gate in column 512 + j. -/
theorem at_update (p : Fin 1024) (j : Fin 512) : Value.ix9_0 (ix2 p j) = ix2 p (hi j) := by
  funext a; apply Fin.ext
  match a with
  | ⟨0, _⟩ => rfl
  | ⟨1, _⟩ => show j.val + 512 = 512 + j.val; omega

theorem at_reset (p : Fin 1024) (j : Fin 512) : Value.ix9_2 (ix2 p j) = ix2 p (lo j) := by
  funext a; apply Fin.ext
  match a with
  | ⟨0, _⟩ => rfl
  | ⟨1, _⟩ => rfl

theorem at_update' (p : Fin 1024) (j : Fin 512) : Value.ix9_4 (ix2 p j) = ix2 p (hi j) := at_update p j

theorem at_self1 (p : Fin 1024) (j : Fin 512) : Value.ix9_1 (ix2 p j) = ix2 p j := by
  funext a; apply Fin.ext
  match a with
  | ⟨0, _⟩ => rfl
  | ⟨1, _⟩ => rfl

theorem at_self3 (p : Fin 1024) (j : Fin 512) : Value.ix9_3 (ix2 p j) = ix2 p j := at_self1 p j
theorem at_self5 (p : Fin 1024) (j : Fin 512) : Value.ix9_5 (ix2 p j) = ix2 p j := at_self1 p j

/-- THE BLOCK IS THE CELL ON ITS ROWS. If the nine loaded blocks are: rows b0 … b0 + 1023 of x and of h; the two halves
    of the joint gate weight, the candidate weights, each with the contracted position first; and the three biases as
    one row each — then entry (p, j) of what the body stores is the cell at batch row b0 + p, unit j. -/
theorem block_cell (P0 P1 : Vec Ideal S1024x512 .f32) (P2 P3 : Vec Ideal S512x1024 .f32) (P4 : Vec Ideal S1x1024 .f32)
    (P5 : Vec Ideal S512x512 .f32) (P6 : Vec Ideal S1x512 .f32) (P7 : Vec Ideal S512x512 .f32) (P8 : Vec Ideal S1x512 .f32)
    (x h : FVec Ideal GruSpec.SRows .f32) (Wg : FVec Ideal GruSpec.SGateW .f32) (bg : FVec Ideal GruSpec.SGateB .f32)
    (Wi : FVec Ideal GruSpec.SSq .f32) (bi : FVec Ideal GruSpec.SVec .f32) (Wh : FVec Ideal GruSpec.SSq .f32)
    (bh : FVec Ideal GruSpec.SVec .f32) (b : Fin 1024 → Fin 16384)
    (h0 : ∀ (p : Fin 1024) (k : Fin 512), P0 (ix2 p k) = x (ix2 (b p) k))
    (h1 : ∀ (p : Fin 1024) (k : Fin 512), P1 (ix2 p k) = h (ix2 (b p) k))
    (h2 : ∀ (k : Fin 512) (c : Fin 1024), P2 (ix2 k c) = Wg (ix2 c (lo k)))
    (h3 : ∀ (k : Fin 512) (c : Fin 1024), P3 (ix2 k c) = Wg (ix2 c (hi k)))
    (h4 : ∀ c : Fin 1024, P4 (ix2 (0 : Fin 1) c) = bg (ix1 c))
    (h5 : ∀ (k j : Fin 512), P5 (ix2 k j) = Wi (ix2 j k))
    (h6 : ∀ j : Fin 512, P6 (ix2 (0 : Fin 1) j) = bi (ix1 j))
    (h7 : ∀ (k j : Fin 512), P7 (ix2 k j) = Wh (ix2 j k))
    (h8 : ∀ j : Fin 512, P8 (ix2 (0 : Fin 1) j) = bh (ix1 j))
    (p : Fin 1024) (j : Fin 512) :
    Value.E9 (F := Ideal) P0 P1 P2 P3 P4 P5 P6 P7 P8 (ix2 p j) = GruSpec.cell x h Wg bg Wi bi Wh bh (b p) j := by
  show (Ideal.ofBits .f32 0x3F800000#32 - Ideal.logistic (k0_pay4 (F := Ideal) P0 P1 P2 P3 P4 (Value.ix9_0 (ix2 p j))))
        * Ideal.tanh (k0_pay7 (F := Ideal) P0 P5 P6 (Value.ix9_1 (ix2 p j))
            + Ideal.logistic (k0_pay4 (F := Ideal) P0 P1 P2 P3 P4 (Value.ix9_2 (ix2 p j))) * k0_pay8 (F := Ideal) P1 P7 P8 (Value.ix9_3 (ix2 p j)))
      + Ideal.logistic (k0_pay4 (F := Ideal) P0 P1 P2 P3 P4 (Value.ix9_4 (ix2 p j))) * P1 (Value.ix9_5 (ix2 p j)) = _
  rw [at_update, at_reset, at_update', at_self1, at_self3, at_self5, gates_block, gates_block, layer_x_block, layer_h_block,
    GruSpec.one_word]
  simp only [h0, h1, h2, h3, h4, h5, h6, h7, h8]
  rfl

end Cert.GruKernel

end
-- ==== Proof.KerArray.lean ====
/-
  From the blocks to the whole array: after the kernel's run the output array is the cell at every batch row.

  The grid has 16 points; point t works on batch rows 1024·t … 1024·t + 1023 of x and h, and on all of the seven other
  operands, which the program around the kernel prepared: the two halves of the joint gate weight and the two candidate
  weights transposed (contracted position first), and the three biases as one row each. So entry (p, j) of what point t
  writes back is the cell at batch row 1024·t + p, unit j, and the 16 blocks of 1024 rows tile the 16384 rows.
-/
import proofs.«176649_j87703232184582_1_alg».proof.Proof.Gen.KernelIdeal.Value
import proofs.«176649_j87703232184582_1_alg».proof.Proof.KerPayload
import Idealize.ShloMosaic.Lib.StableHlo.Run
import Idealize.ShloMosaic.Lib.ValueLayout

noncomputable section

namespace Cert.GruKernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.GruSpec (lo hi)

variable (m : (ℓ : Loc nD τ sig) → Buf (Elt Ideal) ℓ) (ρ : Dev nD → PrngReg)

theorem zero_offsets : (![0, 0] : Fin 2 → Nat) = fun _ => 0 := funext fun a => by fin_cases a <;> rfl

/-! ## What the body stores, over blocks named by what they hold -/

/-- Entry y of what the body stores, from blocks that are rows of x and h and the prepared weights and biases, is the
    cell at the row the block's row y 0 stands for. -/
theorem stored_cell (P0 P1 : Vec Ideal S1024x512 .f32) (P2 P3 : Vec Ideal S512x1024 .f32) (P4 : Vec Ideal S1x1024 .f32)
    (P5 : Vec Ideal S512x512 .f32) (P6 : Vec Ideal S1x512 .f32) (P7 : Vec Ideal S512x512 .f32) (P8 : Vec Ideal S1x512 .f32)
    (x h : FVec Ideal GruSpec.SRows .f32) (Wg : FVec Ideal GruSpec.SGateW .f32) (bg : FVec Ideal GruSpec.SGateB .f32)
    (Wi : FVec Ideal GruSpec.SSq .f32) (bi : FVec Ideal GruSpec.SVec .f32) (Wh : FVec Ideal GruSpec.SSq .f32)
    (bh : FVec Ideal GruSpec.SVec .f32) (b : Fin 1024 → Fin 16384)
    (h0 : ∀ (p : Fin 1024) (k : Fin 512), P0 (ix2 p k) = x (ix2 (b p) k))
    (h1 : ∀ (p : Fin 1024) (k : Fin 512), P1 (ix2 p k) = h (ix2 (b p) k))
    (h2 : ∀ (k : Fin 512) (g : Fin 1024), P2 (ix2 k g) = Wg (ix2 g (lo k)))
    (h3 : ∀ (k : Fin 512) (g : Fin 1024), P3 (ix2 k g) = Wg (ix2 g (hi k)))
    (h4 : ∀ g : Fin 1024, P4 (ix2 (0 : Fin 1) g) = bg (ix1 g))
    (h5 : ∀ (k j : Fin 512), P5 (ix2 k j) = Wi (ix2 j k))
    (h6 : ∀ j : Fin 512, P6 (ix2 (0 : Fin 1) j) = bi (ix1 j))
    (h7 : ∀ (k j : Fin 512), P7 (ix2 k j) = Wh (ix2 j k))
    (h8 : ∀ j : Fin 512, P8 (ix2 (0 : Fin 1) j) = bh (ix1 j))
    (y : S1024x512.Idx) :
    out0_9 (F := Ideal) P0 P1 P2 P3 P4 P5 P6 P7 P8 y = GruSpec.cell x h Wg bg Wi bi Wh bh (b (y 0)) (y 1) := by
  unfold out0_9
  simp only [View.ld_unit_zero (S := S1024x512) zero_offsets, View.ld_unit_zero (S := S512x1024) zero_offsets,
    View.ld_unit_zero (S := S1x1024) zero_offsets, View.ld_unit_zero (S := S512x512) zero_offsets,
    View.ld_unit_zero (S := S1x512) zero_offsets]
  rw [Value.canon9_eq]
  obtain ⟨p, j, rfl⟩ : ∃ (p : Fin 1024) (j : Fin 512), y = ix2 p j := ⟨y 0, y 1, eq_ix2 y⟩
  exact block_cell P0 P1 P2 P3 P4 P5 P6 P7 P8 x h Wg bg Wi bi Wh bh b h0 h1 h2 h3 h4 h5 h6 h7 h8 p j

/-! ## The arrays the region finds -/

/-- The first half of the joint gate weight, transposed. -/
theorem wgx_eq (c : Dev nD) : (V m c main_v1 : S512x1024.Idx → EReal)
    = transpose S512x1024 [1, 0] (extractStridedSlice S1024x512 ![0, 0] (m ((c : Thread nD τ).loc main_arg2))
        slices_S1024x1024_S1024x512_0_0) transposes_S1024x512_S512x1024_1_0 := by
  dsimp only [Gen.V, Gen.hostOps0]; after_results

/-- The second half of the joint gate weight, transposed. -/
theorem wgh_eq (c : Dev nD) : (V m c main_v3 : S512x1024.Idx → EReal)
    = transpose S512x1024 [1, 0] (extractStridedSlice S1024x512 ![0, 512] (m ((c : Thread nD τ).loc main_arg2))
        slices_S1024x1024_S1024x512_0_512) transposes_S1024x512_S512x1024_1_0 := by
  dsimp only [Gen.V, Gen.hostOps0]; after_results

/-- The input layer's weight, transposed. -/
theorem wi_eq (c : Dev nD) : (V m c main_v4 : S512x512.Idx → EReal)
    = transpose S512x512 [1, 0] (m ((c : Thread nD τ).loc main_arg4)) transposes_S512x512_S512x512_1_0 := by
  dsimp only [Gen.V, Gen.hostOps0]; after_results

/-- The state layer's weight, transposed. -/
theorem wh_eq (c : Dev nD) : (V m c main_v5 : S512x512.Idx → EReal)
    = transpose S512x512 [1, 0] (m ((c : Thread nD τ).loc main_arg6)) transposes_S512x512_S512x512_1_0 := by
  dsimp only [Gen.V, Gen.hostOps0]; after_results

/-- The gate bias as one row. -/
theorem bg_eq (c : Dev nD) : (V m c main_v6 : S1x1024.Idx → EReal)
    = shapeCast S1x1024 (m ((c : Thread nD τ).loc main_arg3)) shapeCasts_S1024_S1x1024 := by
  dsimp only [Gen.V, Gen.hostOps0]; after_results; rfl

/-- The input layer's bias as one row. -/
theorem bi_eq (c : Dev nD) : (V m c main_v7 : S1x512.Idx → EReal)
    = shapeCast S1x512 (m ((c : Thread nD τ).loc main_arg5)) shapeCasts_S512_S1x512 := by
  dsimp only [Gen.V, Gen.hostOps0]; after_results; rfl

/-- The state layer's bias as one row. -/
theorem bh_eq (c : Dev nD) : (V m c main_v8 : S1x512.Idx → EReal)
    = shapeCast S1x512 (m ((c : Thread nD τ).loc main_arg7)) shapeCasts_S512_S1x512 := by
  dsimp only [Gen.V, Gen.hostOps0]; after_results; rfl

/-! ## Where each window's block sits -/

/-- The windows on x, h and the output move down the rows with the grid point, and do not move along a row. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0)

/-- The seven other windows never move: each block is its whole array. -/
theorem idx_whole : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0))

/-- The batch row that row p of point t's blocks stands for. -/
def rowAt (t : Fin cfg0.N) (p : Fin 1024) : Fin 16384 :=
  ⟨t.val * 1024 + p.val, by have ht : t.val < 16 := t.isLt; have := p.isLt; omega⟩

/-! ## The nine blocks at a grid point -/

theorem x_block (c : Dev nD) (t : Fin cfg0.N) (p : Fin 1024) (k : Fin 512) :
    iblk m c 0 t (ix2 p k) = m ((c : Thread nD τ).loc main_arg0) (ix2 (rowAt t p) k) := by
  show V m c main_arg0 (((cfg0.win 0).blk t).view.emb (ix2 p k)) = _
  rw [V_main_arg0]
  congr 1; funext a; apply Fin.ext
  obtain ⟨e0, e1, -⟩ := idx_rows t
  match a with
  | ⟨0, _⟩ => show win0_0.index t (0 : Fin 2) * 1024 + 1 * p.val = t.val * 1024 + p.val; rw [e0]; omega
  | ⟨1, _⟩ => show win0_0.index t (1 : Fin 2) * 512 + 1 * k.val = k.val; rw [e1]; omega

theorem h_block (c : Dev nD) (t : Fin cfg0.N) (p : Fin 1024) (k : Fin 512) :
    iblk m c 1 t (ix2 p k) = m ((c : Thread nD τ).loc main_arg1) (ix2 (rowAt t p) k) := by
  show V m c main_arg1 (((cfg0.win 1).blk t).view.emb (ix2 p k)) = _
  rw [V_main_arg1]
  congr 1; funext a; apply Fin.ext
  obtain ⟨-, -, e0, e1, -⟩ := idx_rows t
  match a with
  | ⟨0, _⟩ => show win0_1.index t (0 : Fin 2) * 1024 + 1 * p.val = t.val * 1024 + p.val; rw [e0]; omega
  | ⟨1, _⟩ => show win0_1.index t (1 : Fin 2) * 512 + 1 * k.val = k.val; rw [e1]; omega

theorem wgx_block (c : Dev nD) (t : Fin cfg0.N) (k : Fin 512) (g : Fin 1024) :
    iblk m c 2 t (ix2 k g) = m ((c : Thread nD τ).loc main_arg2) (ix2 g (lo k)) := by
  show V m c main_v1 (((cfg0.win 2).blk t).view.emb (ix2 k g)) = _
  have e : ((cfg0.win 2).blk t).view.emb (ix2 k g) = (ix2 k g : S512x1024.Idx) := by
    funext a; apply Fin.ext
    obtain ⟨⟨e0, e1⟩, -⟩ := idx_whole t
    match a with
    | ⟨0, _⟩ => show win0_2.index t (0 : Fin 2) * 512 + 1 * k.val = k.val; rw [e0]; omega
    | ⟨1, _⟩ => show win0_2.index t (1 : Fin 2) * 1024 + 1 * g.val = g.val; rw [e1]; omega
  rw [e, wgx_eq]
  exact (transpose_ix2_apply _ _ k g).trans (slice2_axis1_apply 0 _ _ g k (lo k) (Nat.zero_add _).symm)

theorem wgh_block (c : Dev nD) (t : Fin cfg0.N) (k : Fin 512) (g : Fin 1024) :
    iblk m c 3 t (ix2 k g) = m ((c : Thread nD τ).loc main_arg2) (ix2 g (hi k)) := by
  show V m c main_v3 (((cfg0.win 3).blk t).view.emb (ix2 k g)) = _
  have e : ((cfg0.win 3).blk t).view.emb (ix2 k g) = (ix2 k g : S512x1024.Idx) := by
    funext a; apply Fin.ext
    obtain ⟨-, ⟨e0, e1⟩, -⟩ := idx_whole t
    match a with
    | ⟨0, _⟩ => show win0_3.index t (0 : Fin 2) * 512 + 1 * k.val = k.val; rw [e0]; omega
    | ⟨1, _⟩ => show win0_3.index t (1 : Fin 2) * 1024 + 1 * g.val = g.val; rw [e1]; omega
  rw [e, wgh_eq]
  exact (transpose_ix2_apply _ _ k g).trans (slice2_axis1_apply 512 _ _ g k (hi k) rfl)

theorem bg_block (c : Dev nD) (t : Fin cfg0.N) (g : Fin 1024) :
    iblk m c 4 t (ix2 (0 : Fin 1) g) = m ((c : Thread nD τ).loc main_arg3) (ix1 g) := by
  show V m c main_v6 (((cfg0.win 4).blk t).view.emb (ix2 (0 : Fin 1) g)) = _
  have e : ((cfg0.win 4).blk t).view.emb (ix2 (0 : Fin 1) g) = (ix2 (0 : Fin 1) g : S1x1024.Idx) := by
    funext a; apply Fin.ext
    obtain ⟨-, -, ⟨e0, e1⟩, -⟩ := idx_whole t
    match a with
    | ⟨0, _⟩ => show win0_4.index t (0 : Fin 2) * 1 + 1 * 0 = 0; rw [e0]
    | ⟨1, _⟩ => show win0_4.index t (1 : Fin 2) * 1024 + 1 * g.val = g.val; rw [e1]; omega
  rw [e, bg_eq]
  exact shapeCast_a_1a_apply _ _ (0 : Fin 1) g

theorem wi_block (c : Dev nD) (t : Fin cfg0.N) (k j : Fin 512) :
    iblk m c 5 t (ix2 k j) = m ((c : Thread nD τ).loc main_arg4) (ix2 j k) := by
  show V m c main_v4 (((cfg0.win 5).blk t).view.emb (ix2 k j)) = _
  have e : ((cfg0.win 5).blk t).view.emb (ix2 k j) = (ix2 k j : S512x512.Idx) := by
    funext a; apply Fin.ext
    obtain ⟨-, -, -, ⟨e0, e1⟩, -⟩ := idx_whole t
    match a with
    | ⟨0, _⟩ => show win0_5.index t (0 : Fin 2) * 512 + 1 * k.val = k.val; rw [e0]; omega
    | ⟨1, _⟩ => show win0_5.index t (1 : Fin 2) * 512 + 1 * j.val = j.val; rw [e1]; omega
  rw [e, wi_eq]
  exact transpose_ix2_apply _ _ k j

theorem bi_block (c : Dev nD) (t : Fin cfg0.N) (j : Fin 512) :
    iblk m c 6 t (ix2 (0 : Fin 1) j) = m ((c : Thread nD τ).loc main_arg5) (ix1 j) := by
  show V m c main_v7 (((cfg0.win 6).blk t).view.emb (ix2 (0 : Fin 1) j)) = _
  have e : ((cfg0.win 6).blk t).view.emb (ix2 (0 : Fin 1) j) = (ix2 (0 : Fin 1) j : S1x512.Idx) := by
    funext a; apply Fin.ext
    obtain ⟨-, -, -, -, ⟨e0, e1⟩, -⟩ := idx_whole t
    match a with
    | ⟨0, _⟩ => show win0_6.index t (0 : Fin 2) * 1 + 1 * 0 = 0; rw [e0]
    | ⟨1, _⟩ => show win0_6.index t (1 : Fin 2) * 512 + 1 * j.val = j.val; rw [e1]; omega
  rw [e, bi_eq]
  exact shapeCast_a_1a_apply _ _ (0 : Fin 1) j

theorem wh_block (c : Dev nD) (t : Fin cfg0.N) (k j : Fin 512) :
    iblk m c 7 t (ix2 k j) = m ((c : Thread nD τ).loc main_arg6) (ix2 j k) := by
  show V m c main_v5 (((cfg0.win 7).blk t).view.emb (ix2 k j)) = _
  have e : ((cfg0.win 7).blk t).view.emb (ix2 k j) = (ix2 k j : S512x512.Idx) := by
    funext a; apply Fin.ext
    obtain ⟨-, -, -, -, -, ⟨e0, e1⟩, -⟩ := idx_whole t
    match a with
    | ⟨0, _⟩ => show win0_7.index t (0 : Fin 2) * 512 + 1 * k.val = k.val; rw [e0]; omega
    | ⟨1, _⟩ => show win0_7.index t (1 : Fin 2) * 512 + 1 * j.val = j.val; rw [e1]; omega
  rw [e, wh_eq]
  exact transpose_ix2_apply _ _ k j

theorem bh_block (c : Dev nD) (t : Fin cfg0.N) (j : Fin 512) :
    iblk m c 8 t (ix2 (0 : Fin 1) j) = m ((c : Thread nD τ).loc main_arg7) (ix1 j) := by
  show V m c main_v8 (((cfg0.win 8).blk t).view.emb (ix2 (0 : Fin 1) j)) = _
  have e : ((cfg0.win 8).blk t).view.emb (ix2 (0 : Fin 1) j) = (ix2 (0 : Fin 1) j : S1x512.Idx) := by
    funext a; apply Fin.ext
    obtain ⟨-, -, -, -, -, -, e0, e1⟩ := idx_whole t
    match a with
    | ⟨0, _⟩ => show win0_8.index t (0 : Fin 2) * 1 + 1 * 0 = 0; rw [e0]
    | ⟨1, _⟩ => show win0_8.index t (1 : Fin 2) * 512 + 1 * j.val = j.val; rw [e1]; omega
  rw [e, bh_eq]
  exact shapeCast_a_1a_apply _ _ (0 : Fin 1) j

/-! ## The output array -/

/-- The cell of the eight argument arrays as launched. -/
def state (c : Dev nD) : FVec Ideal GruSpec.SRows .f32 :=
  GruSpec.newState (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- WHAT POINT t WRITES BACK is block t of the cell's array. -/
theorem flushed_is_state (c : Dev nD) (t : Fin cfg0.N) :
    (dats m 0 c).flushed 9 t = ((cfg0.win 9).blk t).view.read (Elt Ideal) (state m c) := by
  rw [Value.flushed9]
  funext y
  refine (stored_cell (iblk m c 0 t) (iblk m c 1 t) (iblk m c 2 t) (iblk m c 3 t) (iblk m c 4 t) (iblk m c 5 t)
    (iblk m c 6 t) (iblk m c 7 t) (iblk m c 8 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (rowAt t) (x_block m c t) (h_block m c t) (wgx_block m c t) (wgh_block m c t) (bg_block m c t) (wi_block m c t)
    (bi_block m c t) (wh_block m c t) (bh_block m c t) y).trans ?_
  show GruSpec.cell _ _ _ _ _ _ _ _ (rowAt t (y 0)) (y 1) = state m c (((cfg0.win 9).blk t).view.emb y)
  unfold state GruSpec.newState
  obtain ⟨-, -, -, -, e0, e1⟩ := idx_rows t
  have hr : (((cfg0.win 9).blk t).view.emb y : S16384x512.Idx) 0 = rowAt t (y 0) := Fin.ext (by
    show win0_9.index t (0 : Fin 2) * 1024 + 1 * (y 0).val = t.val * 1024 + (y 0).val; rw [e0]; omega)
  have hc : (((cfg0.win 9).blk t).view.emb y : S16384x512.Idx) 1 = y 1 := Fin.ext (by
    show win0_9.index t (1 : Fin 2) * 512 + 1 * (y 1).val = (y 1).val; rw [e1]; omega)
  show _ = GruSpec.cell _ _ _ _ _ _ _ _ ((((cfg0.win 9).blk t).view.emb y : S16384x512.Idx) 0) ((((cfg0.win 9).blk t).view.emb y : S16384x512.Idx) 1)
  rw [hr, hc]

/-- An index of the array is in point t's block iff each coordinate is in the block's range on its axis. -/
theorem mem_block (t : Fin cfg0.N) (i : S16384x512.Idx) :
    i ∈ ((cfg0.win 9).blk t).view.set ↔ ∀ a : Fin 2, win0_9.index t a * S1024x512.size a ≤ (i a).val
      ∧ (i a).val < win0_9.index t a * S1024x512.size a + S1024x512.size a := by
  show i ∈ ((View.whole main_v9).slice (win0_9.rect t)).set ↔ _
  rw [View.set_slice_whole, Rect.mem_set_unit]
  exact Iff.rfl

/-- Every batch row is in the block of the point its row number divided by 1024 names. -/
theorem rows_covered (i : S16384x512.Idx) :
    ∃ t : Fin cfg0.N, (cfg0.win 9).flush t = true ∧ i ∈ ((cfg0.win 9).blk t).view.set := by
  have hi0 : (i 0).val < 16384 := (i 0).isLt
  have hi1 : (i 1).val < 512 := (i 1).isLt
  let t : Fin cfg0.N := ⟨(i 0).val / 1024, by show (i 0).val / 1024 < 16; omega⟩
  obtain ⟨-, -, -, -, e0, e1⟩ := idx_rows t
  refine ⟨t, flush0_9 t, ?_⟩
  rw [mem_block]
  intro a
  match a with
  | ⟨0, _⟩ =>
    show win0_9.index t (0 : Fin 2) * 1024 ≤ (i 0).val ∧ (i 0).val < win0_9.index t (0 : Fin 2) * 1024 + 1024
    rw [e0]; show (i 0).val / 1024 * 1024 ≤ (i 0).val ∧ (i 0).val < (i 0).val / 1024 * 1024 + 1024; omega
  | ⟨1, _⟩ =>
    show win0_9.index t (1 : Fin 2) * 512 ≤ (i 1).val ∧ (i 1).val < win0_9.index t (1 : Fin 2) * 512 + 512
    rw [e1]; omega

/-- THE OUTPUT ARRAY after the run is the cell of the argument arrays. -/
theorem final_state (c : Dev nD) : (dats m 0 c).arrAt 9 cfg0.N = state m c :=
  (dats m 0 c).arrAt_eq_of_cover 9 (state m c) (fun t _ => flushed_is_state m c t) rows_covered

/-- The kernel's run: the result array ends at the cell of the argument arrays, which end unchanged. -/
theorem run : θ_run defs (onTc (τ := τ) (main (F := Ideal))) ⟨m, fun _ => 0, ρ⟩ fun r => ∀ c : Dev nD,
      r.2.mem ((c : Thread nD τ).loc main_v9) = state m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_state m c), (h c).2⟩) (Value.run_blocks m ρ)

end Cert.GruKernel

end
-- ==== Proof.lean ====
/-
  A gated recurrent cell: the kernel against its reference, on the extended reals.

  Both programs compute, for batch row b and hidden unit j,
      out(b, j) = (1 − z) · tanh(i + r · g) + z · h(b, j),
  with r and z the logistic function of the two halves of the joint gate pre-activation, and i, g the two candidate
  layers. The reference joins x and h into rows of 1024 and takes ONE product with the transposed joint weight; the
  kernel takes two products — x against the weight's first 512 columns, h against its last 512 — and adds them: the
  sum over the 1024 joined positions is the sum over its two halves, in a commutative monoid, so no finiteness of the
  inputs is used. The kernel narrows its product operands to bf16, which on the extended reals is the identity; its
  logistic function is the reference's 1 / (1 + e^(−t)).
  The kernel works on 16 blocks of 1024 batch rows with the weights resident; the blocks tile the 16384 rows.

  The specification is Proof/GruSpec.lean; the reference's side Proof/RefCell.lean; the kernel's side
  Proof/KerPayload.lean (a block's entries) and Proof/KerArray.lean (the blocks, and the array they fill).
  No operation of the kernel was rewritten for the ideal reading: its idealization is its own text read at the ideal
  values, and the conjunct that says so is trivial.
-/
import proofs.«176649_j87703232184582_1_alg».proof.Defs
import proofs.«176649_j87703232184582_1_alg».proof.Proof.Gen.Kernel
import proofs.«176649_j87703232184582_1_alg».proof.Proof.Gen.Kernel.Skeleton
import proofs.«176649_j87703232184582_1_alg».proof.Proof.Gen.Kernel.Launch
import proofs.«176649_j87703232184582_1_alg».proof.Proof.Gen.Kernel.Points
import proofs.«176649_j87703232184582_1_alg».proof.Proof.Gen.Kernel.Frame
import proofs.«176649_j87703232184582_1_alg».proof.Proof.Gen.KernelIdeal
import proofs.«176649_j87703232184582_1_alg».proof.Proof.Gen.KernelIdeal.Skeleton
import proofs.«176649_j87703232184582_1_alg».proof.Proof.Gen.KernelIdeal.Launch
import proofs.«176649_j87703232184582_1_alg».proof.Proof.Gen.KernelIdeal.Points
import proofs.«176649_j87703232184582_1_alg».proof.Proof.Gen.KernelIdeal.Frame
import proofs.«176649_j87703232184582_1_alg».proof.Proof.Gen.ReferenceIdeal
import proofs.«176649_j87703232184582_1_alg».proof.Proof.Gen.Pre_finite_inputs
import proofs.«176649_j87703232184582_1_alg».proof.Proof.Gen.KernelIdeal.Value
import proofs.«176649_j87703232184582_1_alg».proof.Proof.Gen.ReferenceIdeal.Run
import proofs.«176649_j87703232184582_1_alg».proof.Proof.Gen.ReferenceIdeal.Read
import proofs.«176649_j87703232184582_1_alg».proof.Proof.RefCell
import proofs.«176649_j87703232184582_1_alg».proof.Proof.KerArray
import Idealize.ShloMosaic.Adequacy
import Idealize.ShloMosaic.Init

noncomputable section

namespace Cert.Proof

open Idealize.ShloMosaic Idealize.SL.Sem

/-- The kernel as printed runs and leaves its arguments as they were. -/
theorem frame_kernel : @Cert.frame_Kernel Cert.Kernel.Gen.facts Cert.Pre_finite_inputs.Gen.facts :=
  fun m ρ _ => Cert.Kernel.Gen.frame m ρ

/-- So does the kernel read at the ideal values. -/
theorem frame_kernel_ideal : @Cert.frame_KernelIdeal Cert.KernelIdeal.Gen.facts Cert.Pre_finite_inputs.Gen.facts :=
  fun m ρ _ => Cert.KernelIdeal.Gen.frame m ρ

/-- The reference runs to its composed term; its arguments are never written. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the eight arguments, both programs end with the cell of those arguments. -/
theorem same_state : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.GruKernel.state m c, Cert.GruKernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v37_eq, Cert.GruRef.result_eq, a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, same_state⟩

end Cert.Proof

end
